-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S256 : Shape := ⟨1, ![256]⟩
abbrev S8x256x512 : Shape := ⟨3, ![8, 256, 512]⟩
abbrev S512x256 : Shape := ⟨2, ![512, 256]⟩
abbrev S512 : Shape := ⟨1, ![512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S256 : S_.BroadcastsInDim S256 (![] : Fin 0 → Fin S256.rank)
  reducesTo_S256_S_d0 : S256.ReducesTo [0] S_
  bcast_S_S8x256x512 : S_.BroadcastsInDim S8x256x512 (![] : Fin 0 → Fin S8x256x512.rank)
  reducesTo_S8x256x512_S_d0_1_2 : S8x256x512.ReducesTo [0, 1, 2] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S65536x512 .f32) (main_arg1 : FVec F S256 .f32) (main_arg2 : FVec F S8x256x512 .f32) (main_arg3 : FVec F S512x256 .f32) (main_arg4 : FVec F S512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S8x256x512 .f32 := Host.absf main_arg2
  let main_cst_2 : FVec F S_ .f32 := constant S_ .f32 0x7F800000#32
  let main_v10 : FVec F S8x256x512 .f32 := broadcastInDim S8x256x512 ![] bcast_S_S8x256x512 main_cst_2
  let main_v11 : IVec S8x256x512 1 := cmpf .olt main_v9 main_v10
  let main_c_3 : IVec S_ 1 := constantI S_ 1 1#1
  let main_v12 : IVec S_ 1 := (fun x v => Host.reduce IntOp.andi x v reducesTo_S8x256x512_S_d0_1_2 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_v13 main_v16
-- ==== Kernel.lean ====
abbrev S65536x512 : Shape := ⟨2, ![65536, 512]⟩
abbrev S256 : Shape := ⟨1, ![256]⟩
abbrev S8x256x512 : Shape := ⟨3, ![8, 256, 512]⟩
abbrev S512x256 : Shape := ⟨2, ![512, 256]⟩
abbrev S512 : Shape := ⟨1, ![512]⟩
abbrev S8 : Shape := ⟨1, ![8]⟩
abbrev S8x1x1 : Shape := ⟨3, ![8, 1, 1]⟩
abbrev S8x512x256 : Shape := ⟨3, ![8, 512, 256]⟩
abbrev S256x512 : Shape := ⟨2, ![256, 512]⟩
abbrev S1x256 : Shape := ⟨2, ![1, 256]⟩
abbrev S1x512 : Shape := ⟨2, ![1, 512]⟩
abbrev S1024x512 : Shape := ⟨2, ![1024, 512]⟩
abbrev S1x512x256 : Shape := ⟨3, ![1, 512, 256]⟩
abbrev S1024x256 : Shape := ⟨2, ![1024, 256]⟩

abbrev nBuf : Space → Nat
  | .hbm => 16
  | .vmem => 8
  | .smem => 0
  | _ => 0

abbrev bufTy : (tb : Table) → Fin (tcTables nBuf tb) → BufTy
  | .hbm, ⟨0, _⟩ => ⟨S65536x512, .f32⟩
  | .hbm, ⟨1, _⟩ => ⟨S256, .f32⟩
  | .hbm, ⟨2, _⟩ => ⟨S8x256x512, .f32⟩
  | .hbm, ⟨3, _⟩ => ⟨S512x256, .f32⟩
  | .hbm, ⟨4, _⟩ => ⟨S512, .f32⟩
  | .hbm, ⟨5, _⟩ => ⟨S8, .f32⟩
  | .hbm, ⟨6, _⟩ => ⟨S8x1x1, .f32⟩
  | .hbm, ⟨7, _⟩ => ⟨S8x256x512, .f32⟩
  | .hbm, ⟨8, _⟩ => ⟨S8x256x512, .f32⟩
  | .hbm, ⟨9, _⟩ => ⟨S8x512x256, .f32⟩
  | .hbm, ⟨10, _⟩ => ⟨S8x512x256, .bf16⟩
  | .hbm, ⟨11, _⟩ => ⟨S256x512, .f32⟩
  | .hbm, ⟨12, _⟩ => ⟨S256x512, .bf16⟩
  | .hbm, ⟨13, _⟩ => ⟨S1x256, .f32⟩
  | .hbm, ⟨14, _⟩ => ⟨S1x512, .f32⟩
  | .hbm, ⟨15, _⟩ => ⟨S65536x512, .f32⟩
  | .local _ .vmem, ⟨0, _⟩ => ⟨S1024x512, .f32⟩
  | .local _ .vmem, ⟨1, _⟩ => ⟨S1024x512, .f32⟩
  | .local _ .vmem, ⟨2, _⟩ => ⟨S1x256, .f32⟩
  | .local _ .vmem, ⟨3, _⟩ => ⟨S8x512x256, .bf16⟩
  | .local _ .vmem, ⟨4, _⟩ => ⟨S256x512, .bf16⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S8_S8x1x1_0 : S8.BroadcastsInDim S8x1x1 (![0] : Fin 1 → Fin S8x1x1.rank)
  bcast_S8x1x1_S8x256x512_0_1_2 : S8x1x1.BroadcastsInDim S8x256x512 (![0, 1, 2] : Fin 3 → Fin S8x256x512.rank)
  transposes_S8x256x512_S8x512x256_0_2_1 : S8x256x512.Transposes [0, 2, 1] S8x512x256
  bitsLt_bf16_f32 : FTy.bits .bf16 < FTy.bits .f32
  transposes_S512x256_S256x512_1_0 : S512x256.Transposes [1, 0] S256x512
  shapeCasts_S256_S1x256 : S256.ShapeCasts S1x256
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  inb_S8x512x256_S1x512x256_0_0_0 : ∀ a, (![0, 0, 0] : Fin 3 → Nat) a + S1x512x256.size a ≤ S8x512x256.size a
  h_S1x512x256 : 0 < S1x512x256.numel
  shapeCasts_S1x512x256_S512x256 : S1x512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S8x512x256_S1x512x256_1_0_0 : ∀ a, (![1, 0, 0] : Fin 3 → Nat) a + S1x512x256.size a ≤ S8x512x256.size a
  inb_S8x512x256_S1x512x256_2_0_0 : ∀ a, (![2, 0, 0] : Fin 3 → Nat) a + S1x512x256.size a ≤ S8x512x256.size a
  inb_S8x512x256_S1x512x256_3_0_0 : ∀ a, (![3, 0, 0] : Fin 3 → Nat) a + S1x512x256.size a ≤ S8x512x256.size a
  inb_S8x512x256_S1x512x256_4_0_0 : ∀ a, (![4, 0, 0] : Fin 3 → Nat) a + S1x512x256.size a ≤ S8x512x256.size a
  inb_S8x512x256_S1x512x256_5_0_0 : ∀ a, (![5, 0, 0] : Fin 3 → Nat) a + S1x512x256.size a ≤ S8x512x256.size a
  inb_S8x512x256_S1x512x256_6_0_0 : ∀ a, (![6, 0, 0] : Fin 3 → Nat) a + S1x512x256.size a ≤ S8x512x256.size a
  inb_S8x512x256_S1x512x256_7_0_0 : ∀ a, (![7, 0, 0] : Fin 3 → Nat) a + S1x512x256.size a ≤ S8x512x256.size a
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x256_S1024x256_1_0_0_1_n_n_wf : DotDims.WF S1024x512 S512x256 S1024x256 [1] [0] [0] [1] [] []
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x512x256.size a ≤ S8x512x256.size a
  hwx0_2 : ∀ i : grid0.Coords, EltTy.bits .bf16 = 32 ∨ (Rect.block (s := S8x512x256) S8x512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S65536x512.size a
  hwx0_5 : ∀ i : grid0.Coords, EltTy.bits .f32 = 32 ∨ (Rect.block (s := S65536x512) S1024x512.size (cc0_transform_5 i) (hinb0_5 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x512 : Shape := ⟨2, ![65536, 512]⟩
abbrev S256 : Shape := ⟨1, ![256]⟩
abbrev S8x256x512 : Shape := ⟨3, ![8, 256, 512]⟩
abbrev S512x256 : Shape := ⟨2, ![512, 256]⟩
abbrev S512 : Shape := ⟨1, ![512]⟩
abbrev S1x256x512 : Shape := ⟨3, ![1, 256, 512]⟩
abbrev S256x512 : Shape := ⟨2, ![256, 512]⟩
abbrev S65536x256 : Shape := ⟨2, ![65536, 256]⟩
abbrev S_ : Shape := ⟨0, ![]⟩
abbrev S1x256 : Shape := ⟨2, ![1, 256]⟩
abbrev S1x512 : Shape := ⟨2, ![1, 512]⟩

abbrev nBuf : Space → Nat
  | .hbm => 92
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S256, .f32⟩
  | .hbm, ⟨2, _⟩ => ⟨S8x256x512, .f32⟩
  | .hbm, ⟨3, _⟩ => ⟨S512x256, .f32⟩
  | .hbm, ⟨4, _⟩ => ⟨S512, .f32⟩
  | .hbm, ⟨5, _⟩ => ⟨S1x256x512, .f32⟩
  | .hbm, ⟨6, _⟩ => ⟨S256x512, .f32⟩
  | .hbm, ⟨7, _⟩ => ⟨S65536x256, .f32⟩
  | .hbm, ⟨8, _⟩ => ⟨S1x256x512, .f32⟩
  | .hbm, ⟨9, _⟩ => ⟨S256x512, .f32⟩
  | .hbm, ⟨10, _⟩ => ⟨S_, .f32⟩
  | .hbm, ⟨11, _⟩ => ⟨S256x512, .f32⟩
  | .hbm, ⟨12, _⟩ => ⟨S256x512, .f32⟩
  | .hbm, ⟨13, _⟩ => ⟨S65536x256, .f32⟩
  | .hbm, ⟨14, _⟩ => ⟨S65536x256, .f32⟩
  | .hbm, ⟨15, _⟩ => ⟨S_, .f32⟩
  | .hbm, ⟨16, _⟩ => ⟨S256, .f32⟩
  | .hbm, ⟨17, _⟩ => ⟨S256, .f32⟩
  | .hbm, ⟨18, _⟩ => ⟨S1x256, .f32⟩
  | .hbm, ⟨19, _⟩ => ⟨S65536x256, .f32⟩
  | .hbm, ⟨20, _⟩ => ⟨S65536x256, .f32⟩
  | .hbm, ⟨21, _⟩ => ⟨S1x256x512, .f32⟩
  | .hbm, ⟨22, _⟩ => ⟨S256x512, .f32⟩
  | .hbm, ⟨23, _⟩ => ⟨S_, .f32⟩
  | .hbm, ⟨24, _⟩ => ⟨S256x512, .f32⟩
  | .hbm, ⟨25, _⟩ => ⟨S256x512, .f32⟩
  | .hbm, ⟨26, _⟩ => ⟨S65536x256, .f32⟩
  | .hbm, ⟨27, _⟩ => ⟨S65536x256, .f32⟩
  | .hbm, ⟨28, _⟩ => ⟨S_, .f32⟩
  | .hbm, ⟨29, _⟩ => ⟨S65536x256, .f32⟩
  | .hbm, ⟨30, _⟩ => ⟨S65536x256, .f32⟩
  | .hbm, ⟨31, _⟩ => ⟨S65536x256, .f32⟩
  | .hbm, ⟨32, _⟩ => ⟨S1x256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | .hbm, ⟨37, _⟩ => ⟨S65536x256, .f32⟩
  | .hbm, ⟨38, _⟩ => ⟨S65536x256, .f32⟩
  | .hbm, ⟨39, _⟩ => ⟨S_, .f32⟩
  | .hbm, ⟨40, _⟩ => ⟨S65536x256, .f32⟩
  | .hbm, ⟨41, _⟩ => ⟨S65536x256, .f32⟩
  | .hbm, ⟨42, _⟩ => ⟨S65536x256, .f32⟩
  | .hbm, ⟨43, _⟩ => ⟨S1x256x512, .f32⟩
  | .hbm, ⟨44, _⟩ => ⟨S256x512, .f32⟩
  | .hbm, ⟨45, _⟩ => ⟨S_, .f32⟩
  | .hbm, ⟨46, _⟩ => ⟨S256x512, .f32⟩
  | .hbm, ⟨47, _⟩ => ⟨S256x512, .f32⟩
  | .hbm, ⟨48, _⟩ => ⟨S65536x256, .f32⟩
  | .hbm, ⟨49, _⟩ => ⟨S65536x256, .f32⟩
  | .hbm, ⟨50, _⟩ => ⟨S_, .f32⟩
  | .hbm, ⟨51, _⟩ => ⟨S65536x256, .f32⟩
  | .hbm, ⟨52, _⟩ => ⟨S65536x256, .f32⟩
  | .hbm, ⟨53, _⟩ => ⟨S65536x256, .f32⟩
  | .hbm, ⟨54, _⟩ => ⟨S1x256x512, .f32⟩
  | .hbm, ⟨55, _⟩ => ⟨S256x512, .f32⟩
  | .hbm, ⟨56, _⟩ => ⟨S_, .f32⟩
  | .hbm, ⟨57, _⟩ => ⟨S256x512, .f32⟩
  | .hbm, ⟨58, _⟩ => ⟨S256x512, .f32⟩
  | .hbm, ⟨59, _⟩ => ⟨S65536x256, .f32⟩
  | .hbm, ⟨60, _⟩ => ⟨S65536x256, .f32⟩
  | .hbm, ⟨61, _⟩ => ⟨S_, .f32⟩
  | .hbm, ⟨62, _⟩ => ⟨S65536x256, .f32⟩
  | .hbm, ⟨63, _⟩ => ⟨S65536x256, .f32⟩
  | .hbm, ⟨64, _⟩ => ⟨S65536x256, .f32⟩
  | .hbm, ⟨65, _⟩ => ⟨S1x256x512, .f32⟩
  | .hbm, ⟨66, _⟩ => ⟨S256x512, .f32⟩
  | .hbm, ⟨67, _⟩ => ⟨S_, .f32⟩
  | .hbm, ⟨68, _⟩ => ⟨S256x512, .f32⟩
  | .hbm, ⟨69, _⟩ => ⟨S256x512, .f32⟩
  | .hbm, ⟨70, _⟩ => ⟨S65536x256, .f32⟩
  | .hbm, ⟨71, _⟩ => ⟨S65536x256, .f32⟩
  | .hbm, ⟨72, _⟩ => ⟨S_, .f32⟩
  | .hbm, ⟨73, _⟩ => ⟨S65536x256, .f32⟩
  | .hbm, ⟨74, _⟩ => ⟨S65536x256, .f32⟩
  | .hbm, ⟨75, _⟩ => ⟨S65536x256, .f32⟩
  | .hbm, ⟨76, _⟩ => ⟨S1x256x512, .f32⟩
  | .hbm, ⟨77, _⟩ => ⟨S256x512, .f32⟩
  | .hbm, ⟨78, _⟩ => ⟨S_, .f32⟩
  | .hbm, ⟨79, _⟩ => ⟨S256x512, .f32⟩
  | .hbm, ⟨80, _⟩ => ⟨S256x512, .f32⟩
  | .hbm, ⟨81, _⟩ => ⟨S65536x256, .f32⟩
  | .hbm, ⟨82, _⟩ => ⟨S65536x256, .f32⟩
  | .hbm, ⟨83, _⟩ => ⟨S_, .f32⟩
  | .hbm, ⟨84, _⟩ => ⟨S65536x256, .f32⟩
  | .hbm, ⟨85, _⟩ => ⟨S65536x256, .f32⟩
  | .hbm, ⟨86, _⟩ => ⟨S65536x256, .f32⟩
  | .hbm, ⟨87, _⟩ => ⟨S256x512, .f32⟩
  | .hbm, ⟨88, _⟩ => ⟨S65536x512, .f32⟩
  | .hbm, ⟨89, _⟩ => ⟨S1x512, .f32⟩
  | .hbm, ⟨90, _⟩ => ⟨S65536x512, .f32⟩
  | .hbm, ⟨91, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_11 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_12 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]

class Facts₀ : Prop where
  slices_S8x256x512_S1x256x512_0_0_0 : S8x256x512.Slices ![0, 0, 0] S1x256x512
  shapeCasts_S1x256x512_S256x512 : S1x256x512.ShapeCasts S256x512
  slices_S8x256x512_S1x256x512_1_0_0 : S8x256x512.Slices ![1, 0, 0] S1x256x512
  bcast_S_S256x512 : S_.BroadcastsInDim S256x512 (![] : Fin 0 → Fin S256x512.rank)
  bcast_S_S256 : S_.BroadcastsInDim S256 (![] : Fin 0 → Fin S256.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  slices_S8x256x512_S1x256x512_2_0_0 : S8x256x512.Slices ![2, 0, 0] S1x256x512
  bcast_S_S65536x256 : S_.BroadcastsInDim S65536x256 (![] : Fin 0 → Fin S65536x256.rank)
  slices_S8x256x512_S1x256x512_3_0_0 : S8x256x512.Slices ![3, 0, 0] S1x256x512
  slices_S8x256x512_S1x256x512_4_0_0 : S8x256x512.Slices ![4, 0, 0] S1x256x512
  slices_S8x256x512_S1x256x512_5_0_0 : S8x256x512.Slices ![5, 0, 0] S1x256x512
  slices_S8x256x512_S1x256x512_6_0_0 : S8x256x512.Slices ![6, 0, 0] S1x256x512
  slices_S8x256x512_S1x256x512_7_0_0 : S8x256x512.Slices ![7, 0, 0] S1x256x512
  transposes_S512x256_S256x512_1_0 : S512x256.Transposes [1, 0] S256x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  dot_S65536x512_S256x512_S65536x256_1_1_0_0_n_n_wf : DotDims.WF S65536x512 S256x512 S65536x256 [1] [1] [0] [0] [] []
  dot_S65536x256_S256x512_S65536x512_1_0_0_1_n_n_wf : DotDims.WF S65536x256 S256x512 S65536x512 [1] [0] [0] [1] [] []

variable [Facts₀]

def dot_S65536x512_S256x512_S65536x256_1_1_0_0_n_n : DotDims S65536x512 S256x512 S65536x256 where
  lhsContracting := [1]
  rhsContracting := [1]
  lhsNonContracting := [0]
  rhsNonContracting := [0]
  lhsBatch := []
  rhsBatch := []
  wf := dot_S65536x512_S256x512_S65536x256_1_1_0_0_n_n_wf
def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf

class Facts : Prop extends Facts₀ where

variable [Facts]
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.Spec.lean ====
/-
  The three-term recurrence both programs compute, and the result as one function of the five argument arrays.

  With s n = Σ_d z(p,d) · (T(n,κ,d) · a_n) the projection of row p on the n-th scaled parameter slice, the degrees are
    o₁ = s 0,   o₂ = s 1 · o₁ − b₂ · t₀(κ),   o_{n+1} = s n · o_n − b_{n+1} · o_{n−1},
  and the result at (p, j) is Σ_κ o₈(p,κ) · C_w(j,κ) + C_b(j).  The coefficients a_n = (2n−1)/n and b_n = (n−1)/n enter
  only as the binary32 words both programs spell, never as numbers — except a₁ = 1.
-/
import Idealize.ShloMosaic.PureOps.Ideal
import Idealize.ShloMosaic.Lib.ValueIdx

noncomputable section

open scoped BigOperators

namespace Cert.Legendre
open Idealize.ShloMosaic Idealize.ShloMosaic.ValueIdx

/-- The binary32 words of a_1 … a_8 = 1, 3/2, 5/3, 7/4, 9/5, 11/6, 13/7, 15/8. -/
def aWord : Fin 8 → BitVec 32 := fun
  | 0 => 0x3F800000#32 | 1 => 0x3FC00000#32 | 2 => 0x3FD55555#32 | 3 => 0x3FE00000#32
  | 4 => 0x3FE66666#32 | 5 => 0x3FEAAAAB#32 | 6 => 0x3FEDB6DB#32 | 7 => 0x3FF00000#32

/-- a_n as the extended real its word denotes. -/
def aCoef (n : Fin 8) : EReal := Ideal.ofBits .f32 (aWord n)

/-- The word 1.0 denotes 1. -/
theorem aCoef_zero : aCoef 0 = 1 := by
  show Ideal.ofBits .f32 0x3F800000#32 = 1
  simp [Ideal.ofBits, Ideal.ieee, -EReal.coe_mul]; norm_num

/-- One step of the recurrence: the next degree from the projection s, the two degrees before and the word of b. -/
def step (b : BitVec 32) (s o₁ o₂ : EReal) : EReal := s * o₁ - Ideal.ofBits .f32 b * o₂

/-- Degrees 1 to 8 from the eight projections `s` and the degree-0 value `t`. -/
def deg1 (s : Fin 8 → EReal) (_t : EReal) : EReal := s 0
def deg2 (s : Fin 8 → EReal) (t : EReal) : EReal := step 0x3F000000#32 (s 1) (deg1 s t) t
def deg3 (s : Fin 8 → EReal) (t : EReal) : EReal := step 0x3F2AAAAB#32 (s 2) (deg2 s t) (deg1 s t)
def deg4 (s : Fin 8 → EReal) (t : EReal) : EReal := step 0x3F400000#32 (s 3) (deg3 s t) (deg2 s t)
def deg5 (s : Fin 8 → EReal) (t : EReal) : EReal := step 0x3F4CCCCD#32 (s 4) (deg4 s t) (deg3 s t)
def deg6 (s : Fin 8 → EReal) (t : EReal) : EReal := step 0x3F555555#32 (s 5) (deg5 s t) (deg4 s t)
def deg7 (s : Fin 8 → EReal) (t : EReal) : EReal := step 0x3F5B6DB7#32 (s 6) (deg6 s t) (deg5 s t)
def deg8 (s : Fin 8 → EReal) (t : EReal) : EReal := step 0x3F600000#32 (s 7) (deg7 s t) (deg6 s t)

/-- The projection of row p of z on the n-th parameter slice, scaled by a_n, at feature κ. -/
def proj (z : (⟨2, ![65536, 512]⟩ : Shape).Idx → EReal) (T : (⟨3, ![8, 256, 512]⟩ : Shape).Idx → EReal)
    (p : Fin 65536) (κ : Fin 256) (n : Fin 8) : EReal :=
  ∑ d : Fin 512, z (ix2 p d) * (T (ix3 n κ d) * aCoef n)

/-- Degree 8 at row p and feature κ. -/
def top (z : (⟨2, ![65536, 512]⟩ : Shape).Idx → EReal) (t0 : (⟨1, ![256]⟩ : Shape).Idx → EReal)
    (T : (⟨3, ![8, 256, 512]⟩ : Shape).Idx → EReal) (p : Fin 65536) (κ : Fin 256) : EReal :=
  deg8 (proj z T p κ) (t0 (ix1 κ))

/-- The result array: the last layer applied to degree 8. -/
def G (z : (⟨2, ![65536, 512]⟩ : Shape).Idx → EReal) (t0 : (⟨1, ![256]⟩ : Shape).Idx → EReal)
    (T : (⟨3, ![8, 256, 512]⟩ : Shape).Idx → EReal) (cw : (⟨2, ![512, 256]⟩ : Shape).Idx → EReal)
    (cb : (⟨1, ![512]⟩ : Shape).Idx → EReal) : (⟨2, ![65536, 512]⟩ : Shape).Idx → EReal :=
  fun i => (∑ κ : Fin 256, top z t0 T (i 0) κ * cw (ix2 (i 1) κ)) + cb (ix1 (i 1))

end Cert.Legendre

end
-- ==== Proof.Body.lean ====
/-
  The kernel body's stored value at an index of its block.

  At row r and output column j of a block the body stores Σ_κ o₈(r,κ) · c(κ,j) + bias(0,j), where o₈ is degree 8 of
  the recurrence over the projections Σ_d z(r,d) · w(n,d,κ) of the row on the eight slices of the staged parameter
  array, started from t₀(0,κ).  Each matrix product in the body is a plain rows-by-columns product accumulated into
  zero, so at an index it is a finite sum; every other operation is pointwise, a change of float format (the identity
  on the extended reals), or a broadcast of one row.
-/
import proofs.«158293_j21371757265197_1_alg».proof.Proof.Gen.KernelIdeal.Frame
import proofs.«158293_j21371757265197_1_alg».proof.Proof.LibPlainDot
import proofs.«158293_j21371757265197_1_alg».proof.Proof.Spec
import Idealize.ShloMosaic.Lib.ValueLayout
import Idealize.ShloMosaic.Lib.Pipeline.Value
import Idealize.ShloMosaic.PureOps.Ideal.Laws

noncomputable section

open scoped BigOperators

namespace Cert.Legendre.Body
open Cert.KernelIdeal Cert.KernelIdeal.Gen Idealize.ShloMosaic Idealize.ShloMosaic.ValueIdx Cert.Legendre

/-- The projection of row r of a block of z on one [1, 512, 256] slice of the staged parameters, at feature κ. -/
def bproj (x : S1024x512.Idx → EReal) (w : S1x512x256.Idx → EReal) (r : Fin 1024) (κ : Fin 256) : EReal :=
  ∑ d : Fin 512, x (ix2 r d) * w (ix3 (0 : Fin 1) d κ)

theorem plain1 : PlainDot.IsPlain dot_S1024x512_S512x256_S1024x256_1_0_0_1_n_n := ⟨rfl, rfl, rfl, rfl, rfl, rfl⟩
theorem plain2 : PlainDot.IsPlain dot_S1024x256_S256x512_S1024x512_1_0_0_1_n_n := ⟨rfl, rfl, rfl, rfl, rfl, rfl⟩

/-- A product of the z block with one slice, the slice's unit axis dropped, is the projection. -/
theorem mm_at (x : FVec Ideal S1024x512 .bf16) (w : Vec Ideal S1x512x256 .bf16) (r : Fin 1024) (κ : Fin 256) :
    matmul dot_S1024x512_S512x256_S1024x256_1_0_0_1_n_n none x
        (shapeCast S512x256 w shapeCasts_S1x512x256_S512x256 : FVec Ideal S512x256 .bf16)
        (constant S1024x256 .f32 0x00000000#32) (ix2 r κ)
      = bproj x w r κ := by
  refine (PlainDot.matmul_zero_plain _ plain1 none x _ r κ).trans (Finset.sum_congr rfl fun d _ => ?_)
  rw [shapeCast_1ab_ab_apply]

/-- The change of float format of the z block is the identity on the extended reals. -/
theorem pay1_at (v0 : Vec Ideal S1024x512 .f32) (i : S1024x512.Idx) : k0_pay1 v0 i = v0 i := rfl

/-- The same with the slice's cast named as the body's first half hands it over. -/
theorem mm6_at (x : FVec Ideal S1024x512 .bf16) (w : Vec Ideal S1x512x256 .bf16) (r : Fin 1024) (κ : Fin 256) :
    matmul dot_S1024x512_S512x256_S1024x256_1_0_0_1_n_n none x (k0_pay6 w) (constant S1024x256 .f32 0x00000000#32) (ix2 r κ)
      = bproj x w r κ := mm_at x w r κ

/-- Degree 1: the projection on slice 0. -/
theorem pay2_at (v0 : Vec Ideal S1024x512 .f32) (v2 : Vec Ideal S1x512x256 .bf16) (r : Fin 1024) (κ : Fin 256) :
    k0_pay2 v0 v2 (ix2 r κ) = bproj v0 v2 r κ := by
  unfold k0_pay2
  exact mm_at _ v2 r κ

/-- Degree 2 from degree 1 and the degree-0 row. -/
theorem pay3_at (v0 : Vec Ideal S1024x512 .f32) (v2 : Vec Ideal S1x512x256 .bf16) (v5 : Vec Ideal S1x256 .f32)
    (v9 : Vec Ideal S1x512x256 .bf16) (r : Fin 1024) (κ : Fin 256) :
    k0_pay3 v0 v2 v5 v9 (ix2 r κ)
      = step 0x3F000000#32 (bproj v0 v9 r κ) (k0_pay2 v0 v2 (ix2 r κ)) (v5 (ix2 (0 : Fin 1) κ)) := by
  unfold k0_pay3
  rw [subf_apply, mulf_apply, mulf_apply, broadcast_apply, mm_at, broadcastTo_1b_ab_apply, shapeCast_self, shapeCast_self]
  rfl

/-- Degree 3 from degrees 2 and 1. -/
theorem pay4_at (v0 : Vec Ideal S1024x512 .f32) (v2 : Vec Ideal S1x512x256 .bf16) (v5 : Vec Ideal S1x256 .f32)
    (v9 v16 : Vec Ideal S1x512x256 .bf16) (r : Fin 1024) (κ : Fin 256) :
    k0_pay4 v0 v2 v5 v9 v16 (ix2 r κ)
      = step 0x3F2AAAAB#32 (bproj v0 v16 r κ) (k0_pay3 v0 v2 v5 v9 (ix2 r κ)) (k0_pay2 v0 v2 (ix2 r κ)) := by
  unfold k0_pay4
  rw [subf_apply, mulf_apply, mulf_apply, broadcast_apply, mm_at]
  rfl

/-- Degree 4 from degrees 3 and 2. -/
theorem pay5_at (v0 : Vec Ideal S1024x512 .f32) (v2 : Vec Ideal S1x512x256 .bf16) (v5 : Vec Ideal S1x256 .f32)
    (v9 v16 v23 : Vec Ideal S1x512x256 .bf16) (r : Fin 1024) (κ : Fin 256) :
    k0_pay5 v0 v2 v5 v9 v16 v23 (ix2 r κ)
      = step 0x3F400000#32 (bproj v0 v23 r κ) (k0_pay4 v0 v2 v5 v9 v16 (ix2 r κ)) (k0_pay3 v0 v2 v5 v9 (ix2 r κ)) := by
  unfold k0_pay5
  rw [subf_apply, mulf_apply, mulf_apply, broadcast_apply, mm_at]
  rfl

/-- Degrees 5 to 8 from degrees 4 and 3 and the last four projections. -/
def tail (s₄ s₅ s₆ s₇ o₄ o₃ : EReal) : EReal :=
  step 0x3F600000#32 s₇
    (step 0x3F5B6DB7#32 s₆ (step 0x3F555555#32 s₅ (step 0x3F4CCCCD#32 s₄ o₄ o₃) o₄) (step 0x3F4CCCCD#32 s₄ o₄ o₃))
    (step 0x3F555555#32 s₅ (step 0x3F4CCCCD#32 s₄ o₄ o₃) o₄)

theorem deg8_eq_tail (s : Fin 8 → EReal) (t : EReal) :
    deg8 s t = tail (s 4) (s 5) (s 6) (s 7) (deg4 s t) (deg3 s t) := rfl

/-- The stored value: the last layer applied to degree 8, which the second half of the body computes from degrees 4
    and 3 (handed over by the first half) and slices 4 to 7. -/
theorem pay7_at (v1 : FVec Ideal S1024x512 .bf16) (v22 v29 : FVec Ideal S1024x256 .f32) (v30 v37 v44 v51 : Vec Ideal S1x512x256 .bf16)
    (v58 : Vec Ideal S256x512 .bf16) (v60 : Vec Ideal S1x512 .f32) (r : Fin 1024) (j : Fin 512) :
    k0_pay7 v1 v22 v29 (k0_pay6 v30) (constant S1024x256 .f32 0x00000000#32) v37 v44 v51 v58 v60 (ix2 r j)
      = (∑ κ : Fin 256, tail (bproj v1 v30 r κ) (bproj v1 v37 r κ) (bproj v1 v44 r κ) (bproj v1 v51 r κ)
            (v29 (ix2 r κ)) (v22 (ix2 r κ)) * v58 (ix2 κ j)) + v60 (ix2 (0 : Fin 1) j) := by
  unfold k0_pay7
  rw [addf_apply, broadcastTo_1b_ab_apply, shapeCast_self, shapeCast_self]
  refine congrArg (· + v60 (ix2 (0 : Fin 1) j)) ?_
  refine (PlainDot.matmul_zero_plain (φ₁ := .bf16) (φ₂ := .bf16) _ plain2 none _ _ r j).trans (Finset.sum_congr rfl fun κ _ => ?_)
  refine congrArg (· * v58 (ix2 κ j)) ?_
  rw [truncf_apply, subf_apply, mulf_apply, mulf_apply, broadcast_apply, mm_at,
    subf_apply, mulf_apply, mulf_apply, broadcast_apply, mm_at,
    subf_apply, mulf_apply, mulf_apply, broadcast_apply, mm_at,
    subf_apply, mulf_apply, mulf_apply, broadcast_apply, mm6_at]
  rfl

/-- A load of slice n of the staged parameter array reads, at (0, d, κ), the array at (n, d, κ). -/
theorem ld_slice (x2 : Vec Ideal S8x512x256 .bf16) (off : Fin 3 → Nat) (inb : ∀ a, off a + S1x512x256.size a ≤ S8x512x256.size a)
    (n : Fin 8) (h0 : off 0 = n.val) (h1 : off 1 = 0) (h2 : off 2 = 0) (d : Fin 512) (κ : Fin 256) :
    View.ld x2 (Rect.unit (s := S8x512x256) off S1x512x256.size inb) (ix3 (0 : Fin 1) d κ) = x2 (ix3 n d κ) := by
  show x2 _ = x2 _
  refine congrArg x2 (funext fun a => Fin.ext ?_)
  match a with
  | ⟨0, _⟩ => show off 0 + 1 * 0 = n.val; omega
  | ⟨1, _⟩ => show off 1 + 1 * d.val = d.val; omega
  | ⟨2, _⟩ => show off 2 + 1 * κ.val = κ.val; omega

/-- The projection on a loaded slice is the projection on that slice of the array. -/
theorem bproj_ld (x0 : Vec Ideal S1024x512 .f32) (x2 : Vec Ideal S8x512x256 .bf16) (off : Fin 3 → Nat)
    (inb : ∀ a, off a + S1x512x256.size a ≤ S8x512x256.size a) (n : Fin 8) (h0 : off 0 = n.val) (h1 : off 1 = 0) (h2 : off 2 = 0)
    (r : Fin 1024) (κ : Fin 256) :
    bproj x0 (View.ld x2 (Rect.unit (s := S8x512x256) off S1x512x256.size inb)) r κ
      = ∑ d : Fin 512, x0 (ix2 r d) * x2 (ix3 n d κ) :=
  Finset.sum_congr rfl fun d _ => by rw [ld_slice x2 off inb n h0 h1 h2]

theorem hz2 : (![0, 0] : Fin 2 → Nat) = fun _ => 0 := funext fun a => by fin_cases a <;> rfl

/-- What the body leaves in the output block, at (r, j), from the five staged blocks. -/
theorem out_at (x0 : Vec Ideal S1024x512 .f32) (x1 : Vec Ideal S1x256 .f32) (x2 : Vec Ideal S8x512x256 .bf16)
    (x3 : Vec Ideal S256x512 .bf16) (x4 : Vec Ideal S1x512 .f32) (r : Fin 1024) (j : Fin 512) :
    out0_5 x0 x1 x2 x3 x4 (ix2 r j)
      = (∑ κ : Fin 256, deg8 (fun n => ∑ d : Fin 512, x0 (ix2 r d) * x2 (ix3 n d κ)) (x1 (ix2 (0 : Fin 1) κ)) * x3 (ix2 κ j))
        + x4 (ix2 (0 : Fin 1) j) := by
  unfold out0_5
  rw [View.canon_unit_zero hz2]
  simp only [View.ld_unit_zero (S := S1024x512) hz2, View.ld_unit_zero (S := S1x256) hz2,
    View.ld_unit_zero (S := S256x512) hz2, View.ld_unit_zero (S := S1x512) hz2]
  rw [pay7_at]
  refine congrArg (· + x4 (ix2 (0 : Fin 1) j)) (Finset.sum_congr rfl fun κ _ => ?_)
  refine congrArg (· * x3 (ix2 κ j)) ?_
  rw [deg8_eq_tail, pay5_at, pay4_at, pay3_at, pay2_at]
  simp only [bproj_ld x0 x2 ![0, 0, 0] inb_S8x512x256_S1x512x256_0_0_0 0 rfl rfl rfl,
    bproj_ld x0 x2 ![1, 0, 0] inb_S8x512x256_S1x512x256_1_0_0 1 rfl rfl rfl,
    bproj_ld x0 x2 ![2, 0, 0] inb_S8x512x256_S1x512x256_2_0_0 2 rfl rfl rfl,
    bproj_ld x0 x2 ![3, 0, 0] inb_S8x512x256_S1x512x256_3_0_0 3 rfl rfl rfl,
    bproj_ld x0 x2 ![4, 0, 0] inb_S8x512x256_S1x512x256_4_0_0 4 rfl rfl rfl,
    bproj_ld x0 x2 ![5, 0, 0] inb_S8x512x256_S1x512x256_5_0_0 5 rfl rfl rfl,
    bproj_ld x0 x2 ![6, 0, 0] inb_S8x512x256_S1x512x256_6_0_0 6 rfl rfl rfl,
    bproj_ld x0 x2 ![7, 0, 0] inb_S8x512x256_S1x512x256_7_0_0 7 rfl rfl rfl,
    bproj_ld (k0_pay1 x0) x2 ![4, 0, 0] inb_S8x512x256_S1x512x256_4_0_0 4 rfl rfl rfl,
    bproj_ld (k0_pay1 x0) x2 ![5, 0, 0] inb_S8x512x256_S1x512x256_5_0_0 5 rfl rfl rfl,
    bproj_ld (k0_pay1 x0) x2 ![6, 0, 0] inb_S8x512x256_S1x512x256_6_0_0 6 rfl rfl rfl,
    bproj_ld (k0_pay1 x0) x2 ![7, 0, 0] inb_S8x512x256_S1x512x256_7_0_0 7 rfl rfl rfl, pay1_at]
  rfl

end Cert.Legendre.Body

end
-- ==== Proof.Staged.lean ====
/-
  The arrays the kernel's host prefix stages, read at an index.

  Before the region @main scales each parameter slice by its coefficient a_n, swaps the last two axes and changes
  the float format (the identity on the extended reals); transposes the last layer's weights; and gives the degree-0
  vector and the bias a leading unit axis.  At an index:
    staged parameters (n, d, κ) = T (n, κ, d) · a_n,     staged weights (κ, j) = C_w (j, κ),
    staged degree-0 row (0, κ) = t₀ κ,                     staged bias row (0, j) = C_b j.
-/
import proofs.«158293_j21371757265197_1_alg».proof.Proof.Gen.KernelIdeal.Frame
import proofs.«158293_j21371757265197_1_alg».proof.Proof.Spec
import Idealize.ShloMosaic.Lib.ValueLayout
import Idealize.ShloMosaic.Lib.Pipeline.Value
import Idealize.ShloMosaic.Lib.StableHlo.Run
import Idealize.ShloMosaic.PureOps.Ideal.Laws

noncomputable section

open scoped BigOperators

namespace Cert.Legendre.Staged
open Cert.KernelIdeal Cert.KernelIdeal.Gen Idealize.ShloMosaic Idealize.ShloMosaic.TcCoe Idealize.ShloMosaic.ValueIdx
open Cert.Legendre Idealize.SL.Sem Idealize.ShloMosaic.StableHlo

variable (m : (ℓ : Loc nD τ sig) → Buf (Elt Ideal) ℓ)

/-- The five argument arrays as launched, at their literal types. -/
abbrev zArr (c : Dev nD) : S65536x512.Idx → EReal := m ((c : Thread nD τ).loc main_arg0)
abbrev t0Arr (c : Dev nD) : S256.Idx → EReal := m ((c : Thread nD τ).loc main_arg1)
abbrev TArr (c : Dev nD) : S8x256x512.Idx → EReal := m ((c : Thread nD τ).loc main_arg2)
abbrev cwArr (c : Dev nD) : S512x256.Idx → EReal := m ((c : Thread nD τ).loc main_arg3)
abbrev cbArr (c : Dev nD) : S512.Idx → EReal := m ((c : Thread nD τ).loc main_arg4)

/-- The arrays the region's windows stage, as the region finds them, at their literal types. -/
abbrev zIn (c : Dev nD) : S65536x512.Idx → EReal := V m c main_arg0
abbrev t0In (c : Dev nD) : S1x256.Idx → EReal := V m c main_v7
abbrev TIn (c : Dev nD) : S8x512x256.Idx → EReal := V m c main_v4
abbrev cwIn (c : Dev nD) : S256x512.Idx → EReal := V m c main_v6
abbrev cbIn (c : Dev nD) : S1x512.Idx → EReal := V m c main_v8

/-- The n-th entry of the coefficient table the prefix spells is a_n's word. -/
theorem lit_eq (n : Fin 8) : FloatOps.ofBits (F := Ideal) .f32 (lit0 (S8.rowMajor (ix1 n))) = aCoef n := by
  have h : S8.rowMajor (ix1 n) = n := Fin.ext (by rw [Shape.rowMajor_val_one])
  rw [h]
  unfold aCoef aWord
  fin_cases n <;> rfl

theorem zIn_eq (c : Dev nD) : zIn m c = zArr m c := V_main_arg0 m c

/-- The staged parameters: slice n scaled by a_n, its last two axes swapped. -/
theorem TIn_at (c : Dev nD) (n : Fin 8) (d : Fin 512) (κ : Fin 256) :
    TIn m c (ix3 n d κ) = TArr m c (ix3 n κ d) * aCoef n := by
  show (V m c main_v4 : S8x512x256.Idx → EReal) (ix3 n d κ) = _
  dsimp only [V, hostOps0]
  after_results
  rw [truncf_apply, transpose_ix3_021_apply, mulf_apply]
  refine congrArg (TArr m c (ix3 n κ d) * ·) ?_
  rw [broadcastInDim_apply ![0, 1, 2] bcast_S8x1x1_S8x256x512_0_1_2 _ (ix3 n κ d) (ix3 n (0 : Fin 1) (0 : Fin 1)) (fun a => match a with
    | ⟨0, _⟩ => by show n.val = if (8 : Nat) = 1 then 0 else n.val; rw [if_neg (by decide)]
    | ⟨1, _⟩ => by show 0 = if (1 : Nat) = 1 then 0 else κ.val; rw [if_pos rfl]
    | ⟨2, _⟩ => by show 0 = if (1 : Nat) = 1 then 0 else d.val; rw [if_pos rfl])]
  rw [broadcastInDim_apply ![0] bcast_S8_S8x1x1_0 _ (ix3 n (0 : Fin 1) (0 : Fin 1)) (ix1 n) (fun a => match a with
    | ⟨0, _⟩ => by show n.val = if (8 : Nat) = 1 then 0 else n.val; rw [if_neg (by decide)])]
  exact lit_eq n

/-- The staged weights: the last layer's weights transposed. -/
theorem cwIn_at (c : Dev nD) (κ : Fin 256) (j : Fin 512) : cwIn m c (ix2 κ j) = cwArr m c (ix2 j κ) := by
  show (V m c main_v6 : S256x512.Idx → EReal) (ix2 κ j) = _
  dsimp only [V, hostOps0]
  after_results
  rw [truncf_apply, transpose_ix2_apply]

/-- The staged degree-0 row. -/
theorem t0In_at (c : Dev nD) (u : Fin 1) (κ : Fin 256) : t0In m c (ix2 u κ) = t0Arr m c (ix1 κ) := by
  show (V m c main_v7 : S1x256.Idx → EReal) (ix2 u κ) = _
  dsimp only [V, hostOps0]
  after_results
  exact shapeCast_a_1a_apply (t0Arr m c) shapeCasts_S256_S1x256 u κ

/-- The staged bias row. -/
theorem cbIn_at (c : Dev nD) (u : Fin 1) (j : Fin 512) : cbIn m c (ix2 u j) = cbArr m c (ix1 j) := by
  show (V m c main_v8 : S1x512.Idx → EReal) (ix2 u j) = _
  dsimp only [V, hostOps0]
  after_results
  exact shapeCast_a_1a_apply (cbArr m c) shapeCasts_S512_S1x512 u j

end Cert.Legendre.Staged

end
-- ==== Proof.Blocks.lean ====
/-
  From the blocks the grid points write to the whole result array.

  The grid has 64 points; point t stages rows 1024·t … 1024·t + 1023 of z, the other four arrays whole, and writes
  rows 1024·t … 1024·t + 1023 of the result.  What it writes at row r and column j of its block is the body's value
  there, which reads row r of the z block — row 1024·t + r of z — and the whole staged arrays; so every point writes
  the block of ONE function of the staged arrays, the blocks cover the result, and the result is that function, which
  read through the host prefix is the specification of the five arguments.
-/
import proofs.«158293_j21371757265197_1_alg».proof.Proof.Gen.KernelIdeal.Value
import proofs.«158293_j21371757265197_1_alg».proof.Proof.Body
import proofs.«158293_j21371757265197_1_alg».proof.Proof.Staged
import Idealize.ShloMosaic.Lib.Pipeline.Value

set_option maxRecDepth 16384

noncomputable section

open scoped BigOperators

namespace Cert.Legendre.Blocks
open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)
open Cert.Legendre Cert.Legendre.Staged

variable (m : (ℓ : Loc nD τ sig) → Buf (Elt Ideal) ℓ) (ρ : Dev nD → PrngReg)

/-- The result array as one function of the arrays the windows stage. -/
def GK (c : Dev nD) : S65536x512.Idx → EReal := fun i =>
  (∑ κ : Fin 256, deg8 (fun n => ∑ d : Fin 512, zIn m c (ix2 (i 0) d) * TIn m c (ix3 n d κ)) (t0In m c (ix2 (0 : Fin 1) κ))
      * cwIn m c (ix2 κ (i 1)))
    + cbIn m c (ix2 (0 : Fin 1) (i 1))

/-- The index maps over the grid: z's and the result's blocks move with the point along the rows; the other four
    windows stay on their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The five staged blocks at a point, at their literal types. -/
abbrev zblk (c : Dev nD) (t : Fin cfg0.N) : Vec Ideal S1024x512 .f32 := iblk m c 0 t
abbrev t0blk (c : Dev nD) (t : Fin cfg0.N) : Vec Ideal S1x256 .f32 := iblk m c 1 t
abbrev Tblk (c : Dev nD) (t : Fin cfg0.N) : Vec Ideal S8x512x256 .bf16 := iblk m c 2 t
abbrev cwblk (c : Dev nD) (t : Fin cfg0.N) : Vec Ideal S256x512 .bf16 := iblk m c 3 t
abbrev cbblk (c : Dev nD) (t : Fin cfg0.N) : Vec Ideal S1x512 .f32 := iblk m c 4 t

/-- Row r of point t's block of z is row 1024·t + r of z. -/
theorem zblk_at (c : Dev nD) (t : Fin cfg0.N) (r : Fin 1024) (d : Fin 512) (p : Fin 65536) (hp : p.val = t.val * 1024 + r.val) :
    zblk m c t (ix2 r d) = zIn m c (ix2 p d) := by
  obtain ⟨e0, e1, -⟩ := idx_facts t
  show V m c main_arg0 (((cfg0.win 0).blk t).view.emb (ix2 r d)) = V m c main_arg0 (ix2 p d)
  have h : (((cfg0.win 0).blk t).view.emb (ix2 r d) : S65536x512.Idx) = ix2 p d := by
    funext a; apply Fin.ext
    match a with
    | ⟨0, _⟩ => show win0_0.index t (0 : Fin 2) * 1024 + 1 * r.val = p.val; omega
    | ⟨1, _⟩ => show win0_0.index t (1 : Fin 2) * 512 + 1 * d.val = d.val; omega
  rw [h]

/-- The other four blocks are their arrays. -/
theorem t0blk_at (c : Dev nD) (t : Fin cfg0.N) (κ : Fin 256) : t0blk m c t (ix2 (0 : Fin 1) κ) = t0In m c (ix2 (0 : Fin 1) κ) := by
  obtain ⟨-, -, e0, e1, -⟩ := idx_facts t
  show V m c main_v7 (((cfg0.win 1).blk t).view.emb (ix2 (0 : Fin 1) κ)) = V m c main_v7 (ix2 (0 : Fin 1) κ)
  have h : (((cfg0.win 1).blk t).view.emb (ix2 (0 : Fin 1) κ) : S1x256.Idx) = ix2 (0 : Fin 1) κ := by
    funext a; apply Fin.ext
    match a with
    | ⟨0, _⟩ => show win0_1.index t (0 : Fin 2) * 1 + 1 * 0 = 0; omega
    | ⟨1, _⟩ => show win0_1.index t (1 : Fin 2) * 256 + 1 * κ.val = κ.val; omega
  rw [h]

theorem Tblk_at (c : Dev nD) (t : Fin cfg0.N) (n : Fin 8) (d : Fin 512) (κ : Fin 256) : Tblk m c t (ix3 n d κ) = TIn m c (ix3 n d κ) := by
  obtain ⟨-, -, -, -, e0, e1, e2, -⟩ := idx_facts t
  show V m c main_v4 (((cfg0.win 2).blk t).view.emb (ix3 n d κ)) = V m c main_v4 (ix3 n d κ)
  have h : (((cfg0.win 2).blk t).view.emb (ix3 n d κ) : S8x512x256.Idx) = ix3 n d κ := by
    funext a; apply Fin.ext
    match a with
    | ⟨0, _⟩ => show win0_2.index t (0 : Fin 3) * 8 + 1 * n.val = n.val; omega
    | ⟨1, _⟩ => show win0_2.index t (1 : Fin 3) * 512 + 1 * d.val = d.val; omega
    | ⟨2, _⟩ => show win0_2.index t (2 : Fin 3) * 256 + 1 * κ.val = κ.val; omega
  rw [h]

theorem cwblk_at (c : Dev nD) (t : Fin cfg0.N) (κ : Fin 256) (j : Fin 512) : cwblk m c t (ix2 κ j) = cwIn m c (ix2 κ j) := by
  obtain ⟨-, -, -, -, -, -, -, e0, e1, -⟩ := idx_facts t
  show V m c main_v6 (((cfg0.win 3).blk t).view.emb (ix2 κ j)) = V m c main_v6 (ix2 κ j)
  have h : (((cfg0.win 3).blk t).view.emb (ix2 κ j) : S256x512.Idx) = ix2 κ j := by
    funext a; apply Fin.ext
    match a with
    | ⟨0, _⟩ => show win0_3.index t (0 : Fin 2) * 256 + 1 * κ.val = κ.val; omega
    | ⟨1, _⟩ => show win0_3.index t (1 : Fin 2) * 512 + 1 * j.val = j.val; omega
  rw [h]

theorem cbblk_at (c : Dev nD) (t : Fin cfg0.N) (j : Fin 512) : cbblk m c t (ix2 (0 : Fin 1) j) = cbIn m c (ix2 (0 : Fin 1) j) := by
  obtain ⟨-, -, -, -, -, -, -, -, -, e0, e1, -⟩ := idx_facts t
  show V m c main_v8 (((cfg0.win 4).blk t).view.emb (ix2 (0 : Fin 1) j)) = V m c main_v8 (ix2 (0 : Fin 1) j)
  have h : (((cfg0.win 4).blk t).view.emb (ix2 (0 : Fin 1) j) : S1x512.Idx) = ix2 (0 : Fin 1) j := by
    funext a; apply Fin.ext
    match a with
    | ⟨0, _⟩ => show win0_4.index t (0 : Fin 2) * 1 + 1 * 0 = 0; omega
    | ⟨1, _⟩ => show win0_4.index t (1 : Fin 2) * 512 + 1 * j.val = j.val; omega
  rw [h]

/-- What point t writes back is block t of `GK`. -/
theorem flushed_eq (c : Dev nD) (t : Fin cfg0.N) :
    (dats m 0 c).flushed 5 t = ((cfg0.win 5).blk t).view.read (Elt Ideal) (GK m c) := by
  rw [flushed5]
  obtain ⟨-, -, -, -, -, -, -, -, -, -, -, e0, e1⟩ := idx_facts t
  funext y
  obtain ⟨r, j, rfl⟩ : ∃ (r : Fin 1024) (j : Fin 512), y = ix2 r j := ⟨y 0, y 1, eq_ix2 y⟩
  show out0_5 (zblk m c t) (t0blk m c t) (Tblk m c t) (cwblk m c t) (cbblk m c t) (ix2 r j)
    = GK m c (((cfg0.win 5).blk t).view.emb (ix2 r j))
  have hi1 : (((cfg0.win 5).blk t).view.emb (ix2 r j) : S65536x512.Idx) 1 = j :=
    Fin.ext (by show win0_5.index t (1 : Fin 2) * 512 + 1 * j.val = j.val; omega)
  have hi0 : ((((cfg0.win 5).blk t).view.emb (ix2 r j) : S65536x512.Idx) 0).val = t.val * 1024 + r.val := by
    show win0_5.index t (0 : Fin 2) * 1024 + 1 * r.val = t.val * 1024 + r.val; omega
  refine (Body.out_at (zblk m c t) (t0blk m c t) (Tblk m c t) (cwblk m c t) (cbblk m c t) r j).trans ?_
  unfold GK
  rw [hi1]
  refine congrArg₂ (· + ·) (Finset.sum_congr rfl fun κ _ => congrArg₂ (· * ·) (congrArg₂ deg8 (funext fun n =>
    Finset.sum_congr rfl fun d _ => congrArg₂ (· * ·) (zblk_at m c t r d _ hi0) (Tblk_at m c t n d κ)) (t0blk_at m c t κ))
    (cwblk_at m c t κ j)) (cbblk_at m c t j)

/-- An index of the result is in point t's block iff each coordinate is in the block's range on its axis. -/
theorem mem_blk (t : Fin cfg0.N) (i : S65536x512.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_v9).slice (win0_5.rect t)).set ↔ _
  rw [View.set_slice_whole, Rect.mem_set_unit]
  exact Iff.rfl

/-- Row p of the result is in the block of point p / 1024. -/
theorem cover (i : S65536x512.Idx) : ∃ t : Fin cfg0.N, (cfg0.win 5).flush t = true ∧ i ∈ ((cfg0.win 5).blk t).view.set := by
  have hi0 : (i 0).val < 65536 := (i 0).isLt
  have hi1 : (i 1).val < 512 := (i 1).isLt
  have hN : (i 0).val / 1024 < cfg0.N := by show (i 0).val / 1024 < grid0.N; rw [N_0]; omega
  refine ⟨⟨(i 0).val / 1024, hN⟩, flush0_5 _, ?_⟩
  obtain ⟨-, -, -, -, -, -, -, -, -, -, -, e0, e1⟩ := idx_facts ⟨(i 0).val / 1024, hN⟩
  rw [mem_blk]
  intro a
  match a with
  | ⟨0, _⟩ =>
    show win0_5.index ⟨(i 0).val / 1024, hN⟩ (0 : Fin 2) * 1024 ≤ (i 0).val
      ∧ (i 0).val < win0_5.index ⟨(i 0).val / 1024, hN⟩ (0 : Fin 2) * 1024 + 1024
    have : (⟨(i 0).val / 1024, hN⟩ : Fin cfg0.N).val = (i 0).val / 1024 := rfl
    omega
  | ⟨1, _⟩ =>
    show win0_5.index ⟨(i 0).val / 1024, hN⟩ (1 : Fin 2) * 512 ≤ (i 1).val
      ∧ (i 1).val < win0_5.index ⟨(i 0).val / 1024, hN⟩ (1 : Fin 2) * 512 + 512
    omega

/-- The result array after the run. -/
theorem final (c : Dev nD) : (dats m 0 c).arrAt 5 cfg0.N = GK m c :=
  (dats m 0 c).arrAt_eq_of_cover 5 (GK m c) (fun t _ => flushed_eq m c t) cover

/-- Read through the host prefix, it is the specification of the five arguments. -/
theorem GK_eq (c : Dev nD) : GK m c = G (zArr m c) (t0Arr m c) (TArr m c) (cwArr m c) (cbArr m c) := by
  funext i
  obtain ⟨p, j, rfl⟩ : ∃ (p : Fin 65536) (j : Fin 512), i = ix2 p j := ⟨i 0, i 1, eq_ix2 i⟩
  show (∑ κ : Fin 256, deg8 (fun n => ∑ d : Fin 512, zIn m c (ix2 p d) * TIn m c (ix3 n d κ)) (t0In m c (ix2 (0 : Fin 1) κ))
        * cwIn m c (ix2 κ j)) + cbIn m c (ix2 (0 : Fin 1) j)
    = (∑ κ : Fin 256, deg8 (proj (zArr m c) (TArr m c) p κ) (t0Arr m c (ix1 κ)) * cwArr m c (ix2 j κ)) + cbArr m c (ix1 j)
  exact congrArg₂ (· + ·) (Finset.sum_congr rfl fun κ _ => congrArg₂ (· * ·) (congrArg₂ deg8 (funext fun n =>
    Finset.sum_congr rfl fun d _ => congrArg₂ (· * ·) (congrFun (zIn_eq m c) (ix2 p d)) (TIn_at m c n d κ)) (t0In_at m c 0 κ))
    (cwIn_at m c κ j)) (cbIn_at m c 0 j)

/-- The idealized kernel's run: the result at the specification, the arguments unchanged. -/
theorem run : θ_run defs (onTc (τ := τ) (main (F := Ideal))) ⟨m, fun _ => 0, ρ⟩ fun r => ∀ c : Dev nD,
      r.2.mem ((c : Thread nD τ).loc main_v9) = G (zArr m c) (t0Arr m c) (TArr m c) (cwArr m c) (cbArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (GK_eq m c)), (h c).2⟩) (run_blocks m ρ)

end Cert.Legendre.Blocks

end
-- ==== Proof.LibRowsDot.lean ====
/-
  A product of a matrix with the transpose of another, read at an index.

  For dimension numbers that contract the left operand's axis 1 with the right operand's axis 1 and have no batch
  axes (an M×K array against an N×K array, rows against rows), the host's dot_general is, at the extended reals, the
  sum over the contracted coordinate κ of the products l (p, κ) * r (q, κ).
-/
import Idealize.ShloMosaic.PureOps.Ideal.Laws
import Idealize.ShloMosaic.Lib.ValueIdx

noncomputable section

open scoped BigOperators

namespace Idealize.ShloMosaic.RowsDot
open Idealize.ShloMosaic Idealize.ShloMosaic.ValueIdx

/-- M×K against N×K: both operands' axis 1 contracted, no batch axes. -/
structure IsRows {M K N : Nat} (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

section Axes
variable {M K N : Nat} (d : DotDims ⟨2, ![M, K]⟩ ⟨2, ![N, K]⟩ ⟨2, ![M, N]⟩) (hd : IsRows d)
include hd

/-- Exactly one axis is contracted. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the output's column coordinate. -/
theorem rhs_axis0 (j : (⟨2, ![M, N]⟩ : Shape).Idx) (k : d.contr.Idx) : (d.rhsIdx j k 0).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The right operand's column coordinate is the contracted coordinate. -/
theorem rhs_axis1 (j : (⟨2, ![M, N]⟩ : Shape).Idx) (k : d.contr.Idx) :
    (d.rhsIdx j k 1).val = (k ⟨0, by rw [contr_rank d hd]; exact Nat.one_pos⟩).val :=
  d.rhsIdx_val_of_single hd.rc j k

/-- The sum over the contraction index, re-indexed by the contracted coordinate: the operands are read at (p, κ) and
    (q, κ). -/
theorem sum_contr_rows {φ₁ φ₂ : FTy} (l : FVec Ideal ⟨2, ![M, K]⟩ φ₁) (r : FVec Ideal ⟨2, ![N, K]⟩ φ₂)
    (p : Fin M) (q : Fin N) :
    ∑ k : d.contr.Idx, l (d.lhsIdx (ix2 p q) k) * r (d.rhsIdx (ix2 p q) k) = ∑ κ : Fin K, l (ix2 p κ) * r (ix2 q κ) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 q κ := by
    funext a
    match a with
    | ⟨0, _⟩ => exact Fin.ext (rhs_axis0 d hd _ _)
    | ⟨1, _⟩ => exact Fin.ext ((rhs_axis1 d hd _ _).trans (contrEquiv1_symm_val d K _ _ κ))
  rw [hl, hr]

end Axes

/-- The host's dot_general of rows against rows, at (p, q): the sum over κ of l (p, κ) * r (q, κ), whatever the
    schedule. -/
theorem dotGeneral_rows {M K N : Nat} {φ₁ φ₂ : FTy} (d : DotDims ⟨2, ![M, K]⟩ ⟨2, ![N, K]⟩ ⟨2, ![M, N]⟩) (hd : IsRows d)
    (prec : Option ContractPrecision) (sched : HostSchedule)
    (l : FVec Ideal ⟨2, ![M, K]⟩ φ₁) (r : FVec Ideal ⟨2, ![N, K]⟩ φ₂) (p : Fin M) (q : Fin N) :
    FloatOps.dotGeneral d prec sched l r (ix2 p q) = ∑ κ : Fin K, l (ix2 p κ) * r (ix2 q κ) :=
  (Ideal.dotGeneral_apply d prec sched l r (ix2 p q)).trans (sum_contr_rows d hd l r p q)

end Idealize.ShloMosaic.RowsDot

end
-- ==== Proof.Ref.lean ====
/-
  The reference's result, read at an index, is the specification.

  The reference projects each row of z on the eight parameter slices with a product of rows against rows
  (z (p, ·) against a_n · T (n, κ, ·)), runs the three-term recurrence pointwise, and applies the last layer as a plain
  product with the transposed weights plus the broadcast bias.  Slice 0 is used unscaled, which is the scaling by
  a_1 = 1; on the other slices the coefficient multiplies from the left, where the specification multiplies from the
  right.
-/
import proofs.«158293_j21371757265197_1_alg».proof.Proof.Gen.ReferenceIdeal.Read
import proofs.«158293_j21371757265197_1_alg».proof.Proof.LibPlainDot
import proofs.«158293_j21371757265197_1_alg».proof.Proof.LibRowsDot
import proofs.«158293_j21371757265197_1_alg».proof.Proof.Spec
import Idealize.ShloMosaic.Lib.ValueLayout
import Idealize.ShloMosaic.Lib.Pipeline.Value
import Idealize.ShloMosaic.PureOps.Ideal.Laws

noncomputable section

open scoped BigOperators

namespace Cert.Legendre.Ref
open Cert.ReferenceIdeal Cert.ReferenceIdeal.Gen Cert.ReferenceIdeal.Read Idealize.ShloMosaic Idealize.ShloMosaic.ValueIdx Cert.Legendre

variable (x0 : S65536x512.Idx → EReal) (x1 : S256.Idx → EReal) (x2 : S8x256x512.Idx → EReal)
  (x3 : S512x256.Idx → EReal) (x4 : S512.Idx → EReal)

theorem rows : RowsDot.IsRows dot_S65536x512_S256x512_S65536x256_1_1_0_0_n_n := ⟨rfl, rfl, rfl, rfl, rfl, rfl⟩
theorem plain : PlainDot.IsPlain dot_S65536x256_S256x512_S65536x512_1_0_0_1_n_n := ⟨rfl, rfl, rfl, rfl, rfl, rfl⟩

/-- Slice n of the parameters with its unit axis dropped reads, at (κ, d), the parameters at (n, κ, d). -/
theorem slice_at (off : Fin 3 → Nat) (h : S8x256x512.Slices off S1x256x512) (n : Fin 8)
    (h0 : off 0 = n.val) (h1 : off 1 = 0) (h2 : off 2 = 0) (κ : Fin 256) (d : Fin 512) :
    shapeCast S256x512 (extractStridedSlice S1x256x512 off x2 h) shapeCasts_S1x256x512_S256x512 (ix2 κ d) = x2 (ix3 n κ d) := by
  rw [shapeCast_1ab_ab_apply]
  exact extractStridedSlice_apply off x2 h _ _ (fun a => match a with
    | ⟨0, _⟩ => by show n.val = off 0 + 0; omega
    | ⟨1, _⟩ => by show κ.val = off 1 + κ.val; omega
    | ⟨2, _⟩ => by show d.val = off 2 + d.val; omega)

/-- A projection stage: row p of z against row κ of a [256, 512] array. -/
theorem dot_at (y : S256x512.Idx → EReal) (p : Fin 65536) (κ : Fin 256) :
    Host.dotGeneral (F := Ideal) (φ₁ := .f32) (φ₂ := .f32) dot_S65536x512_S256x512_S65536x256_1_1_0_0_n_n none x0 y (ix2 p κ)
      = ∑ d : Fin 512, x0 (ix2 p d) * y (ix2 κ d) :=
  RowsDot.dotGeneral_rows (φ₁ := .f32) (φ₂ := .f32) _ rows none .single x0 y p κ

/-- Degree 1: the projection on slice 0, whose coefficient is 1. -/
theorem v2_at (p : Fin 65536) (κ : Fin 256) : val_main_v2 (F := Ideal) x0 x2 (ix2 p κ) = proj x0 x2 p κ 0 := by
  unfold val_main_v2
  refine (dot_at x0 _ p κ).trans (Finset.sum_congr rfl fun d _ => congrArg (x0 (ix2 p d) * ·) ?_)
  unfold val_main_v1 val_main_v0
  rw [slice_at x2 _ _ 0 rfl rfl rfl, aCoef_zero, mul_one]

/-- The projection on slice 1, scaled by a_2 from the left. -/
theorem v7_at (p : Fin 65536) (κ : Fin 256) : val_main_v7 (F := Ideal) x0 x2 (ix2 p κ) = proj x0 x2 p κ 1 := by
  unfold val_main_v7
  refine (dot_at x0 _ p κ).trans (Finset.sum_congr rfl fun d _ => congrArg (x0 (ix2 p d) * ·) ?_)
  rw [val_main_v6_apply, val_main_v5_apply, val_main_cst_apply]
  unfold val_main_v4 val_main_v3
  rw [slice_at x2 _ _ 1 rfl rfl rfl]
  show (Ideal.ofBits .f32 0x3FC00000#32 : EReal) * x2 (ix3 1 κ d) = x2 (ix3 1 κ d) * aCoef 1
  exact mul_comm _ _

/-- The projection on slice 2, scaled by a_3 from the left. -/
theorem v18_at (p : Fin 65536) (κ : Fin 256) : val_main_v18 (F := Ideal) x0 x2 (ix2 p κ) = proj x0 x2 p κ 2 := by
  unfold val_main_v18
  refine (dot_at x0 _ p κ).trans (Finset.sum_congr rfl fun d _ => congrArg (x0 (ix2 p d) * ·) ?_)
  rw [val_main_v17_apply, val_main_v16_apply, val_main_cst_1_apply]
  unfold val_main_v15 val_main_v14
  rw [slice_at x2 _ _ 2 rfl rfl rfl]
  show (Ideal.ofBits .f32 0x3FD55555#32 : EReal) * x2 (ix3 2 κ d) = x2 (ix3 2 κ d) * aCoef 2
  exact mul_comm _ _

/-- The projection on slice 3, scaled by a_4 from the left. -/
theorem v27_at (p : Fin 65536) (κ : Fin 256) : val_main_v27 (F := Ideal) x0 x2 (ix2 p κ) = proj x0 x2 p κ 3 := by
  unfold val_main_v27
  refine (dot_at x0 _ p κ).trans (Finset.sum_congr rfl fun d _ => congrArg (x0 (ix2 p d) * ·) ?_)
  rw [val_main_v26_apply, val_main_v25_apply, val_main_cst_3_apply]
  unfold val_main_v24 val_main_v23
  rw [slice_at x2 _ _ 3 rfl rfl rfl]
  show (Ideal.ofBits .f32 0x3FE00000#32 : EReal) * x2 (ix3 3 κ d) = x2 (ix3 3 κ d) * aCoef 3
  exact mul_comm _ _

/-- The projection on slice 4, scaled by a_5 from the left. -/
theorem v36_at (p : Fin 65536) (κ : Fin 256) : val_main_v36 (F := Ideal) x0 x2 (ix2 p κ) = proj x0 x2 p κ 4 := by
  unfold val_main_v36
  refine (dot_at x0 _ p κ).trans (Finset.sum_congr rfl fun d _ => congrArg (x0 (ix2 p d) * ·) ?_)
  rw [val_main_v35_apply, val_main_v34_apply, val_main_cst_5_apply]
  unfold val_main_v33 val_main_v32
  rw [slice_at x2 _ _ 4 rfl rfl rfl]
  show (Ideal.ofBits .f32 0x3FE66666#32 : EReal) * x2 (ix3 4 κ d) = x2 (ix3 4 κ d) * aCoef 4
  exact mul_comm _ _

/-- The projection on slice 5, scaled by a_6 from the left. -/
theorem v45_at (p : Fin 65536) (κ : Fin 256) : val_main_v45 (F := Ideal) x0 x2 (ix2 p κ) = proj x0 x2 p κ 5 := by
  unfold val_main_v45
  refine (dot_at x0 _ p κ).trans (Finset.sum_congr rfl fun d _ => congrArg (x0 (ix2 p d) * ·) ?_)
  rw [val_main_v44_apply, val_main_v43_apply, val_main_cst_7_apply]
  unfold val_main_v42 val_main_v41
  rw [slice_at x2 _ _ 5 rfl rfl rfl]
  show (Ideal.ofBits .f32 0x3FEAAAAB#32 : EReal) * x2 (ix3 5 κ d) = x2 (ix3 5 κ d) * aCoef 5
  exact mul_comm _ _

/-- The projection on slice 6, scaled by a_7 from the left. -/
theorem v54_at (p : Fin 65536) (κ : Fin 256) : val_main_v54 (F := Ideal) x0 x2 (ix2 p κ) = proj x0 x2 p κ 6 := by
  unfold val_main_v54
  refine (dot_at x0 _ p κ).trans (Finset.sum_congr rfl fun d _ => congrArg (x0 (ix2 p d) * ·) ?_)
  rw [val_main_v53_apply, val_main_v52_apply, val_main_cst_9_apply]
  unfold val_main_v51 val_main_v50
  rw [slice_at x2 _ _ 6 rfl rfl rfl]
  show (Ideal.ofBits .f32 0x3FEDB6DB#32 : EReal) * x2 (ix3 6 κ d) = x2 (ix3 6 κ d) * aCoef 6
  exact mul_comm _ _

/-- The projection on slice 7, scaled by a_8 from the left. -/
theorem v63_at (p : Fin 65536) (κ : Fin 256) : val_main_v63 (F := Ideal) x0 x2 (ix2 p κ) = proj x0 x2 p κ 7 := by
  unfold val_main_v63
  refine (dot_at x0 _ p κ).trans (Finset.sum_congr rfl fun d _ => congrArg (x0 (ix2 p d) * ·) ?_)
  rw [val_main_v62_apply, val_main_v61_apply, val_main_cst_11_apply]
  unfold val_main_v60 val_main_v59
  rw [slice_at x2 _ _ 7 rfl rfl rfl]
  show (Ideal.ofBits .f32 0x3FF00000#32 : EReal) * x2 (ix3 7 κ d) = x2 (ix3 7 κ d) * aCoef 7
  exact mul_comm _ _

/-- The degree-0 vector scaled by b_2 and broadcast over the rows reads, at (p, κ), b_2 · t₀ κ. -/
theorem v12_at (p : Fin 65536) (κ : Fin 256) :
    val_main_v12 (F := Ideal) x1 (ix2 p κ) = Ideal.ofBits .f32 0x3F000000#32 * x1 (ix1 κ) := by
  rw [val_main_v12_apply, val_main_v11_apply, val_main_v10_apply, val_main_v9_apply, val_main_cst_0_apply]
  have e : idx_main_v11 (idx_main_v12 (ix2 p κ)) = ix1 κ := funext fun a => match a with | ⟨0, _⟩ => rfl
  rw [e]
  rfl

/-- Degree 2. -/
theorem v13_at (p : Fin 65536) (κ : Fin 256) :
    val_main_v13 (F := Ideal) x0 x1 x2 (ix2 p κ) = deg2 (proj x0 x2 p κ) (x1 (ix1 κ)) := by
  rw [val_main_v13_apply, val_main_v8_apply, v12_at, v7_at, v2_at]
  rfl

/-- Degree 3. -/
theorem v22_at (p : Fin 65536) (κ : Fin 256) :
    val_main_v22 (F := Ideal) x0 x1 x2 (ix2 p κ) = deg3 (proj x0 x2 p κ) (x1 (ix1 κ)) := by
  rw [val_main_v22_apply, val_main_v19_apply, val_main_v21_apply, val_main_v20_apply, val_main_cst_2_apply,
    v18_at, v13_at, v2_at]
  rfl

/-- Degree 4. -/
theorem v31_at (p : Fin 65536) (κ : Fin 256) :
    val_main_v31 (F := Ideal) x0 x1 x2 (ix2 p κ) = deg4 (proj x0 x2 p κ) (x1 (ix1 κ)) := by
  rw [val_main_v31_apply, val_main_v28_apply, val_main_v30_apply, val_main_v29_apply, val_main_cst_4_apply,
    v27_at, v22_at, v13_at]
  rfl

/-- Degree 5. -/
theorem v40_at (p : Fin 65536) (κ : Fin 256) :
    val_main_v40 (F := Ideal) x0 x1 x2 (ix2 p κ) = deg5 (proj x0 x2 p κ) (x1 (ix1 κ)) := by
  rw [val_main_v40_apply, val_main_v37_apply, val_main_v39_apply, val_main_v38_apply, val_main_cst_6_apply,
    v36_at, v31_at, v22_at]
  rfl

/-- Degree 6. -/
theorem v49_at (p : Fin 65536) (κ : Fin 256) :
    val_main_v49 (F := Ideal) x0 x1 x2 (ix2 p κ) = deg6 (proj x0 x2 p κ) (x1 (ix1 κ)) := by
  rw [val_main_v49_apply, val_main_v46_apply, val_main_v48_apply, val_main_v47_apply, val_main_cst_8_apply,
    v45_at, v40_at, v31_at]
  rfl

/-- Degree 7. -/
theorem v58_at (p : Fin 65536) (κ : Fin 256) :
    val_main_v58 (F := Ideal) x0 x1 x2 (ix2 p κ) = deg7 (proj x0 x2 p κ) (x1 (ix1 κ)) := by
  rw [val_main_v58_apply, val_main_v55_apply, val_main_v57_apply, val_main_v56_apply, val_main_cst_10_apply,
    v54_at, v49_at, v40_at]
  rfl

/-- Degree 8. -/
theorem v67_at (p : Fin 65536) (κ : Fin 256) :
    val_main_v67 (F := Ideal) x0 x1 x2 (ix2 p κ) = deg8 (proj x0 x2 p κ) (x1 (ix1 κ)) := by
  rw [val_main_v67_apply, val_main_v64_apply, val_main_v66_apply, val_main_v65_apply, val_main_cst_12_apply,
    v63_at, v58_at, v49_at]
  rfl

/-- The bias broadcast over the rows reads, at (p, j), C_b j. -/
theorem v71_at (p : Fin 65536) (j : Fin 512) : val_main_v71 (F := Ideal) x4 (ix2 p j) = x4 (ix1 j) := by
  rw [val_main_v71_apply, val_main_v70_apply]
  exact congrArg x4 (funext fun a => match a with | ⟨0, _⟩ => rfl)

/-- The last layer: degree 8 against the transposed weights. -/
theorem v69_at (p : Fin 65536) (j : Fin 512) :
    val_main_v69 (F := Ideal) x0 x1 x2 x3 (ix2 p j) = ∑ κ : Fin 256, top x0 x1 x2 p κ * x3 (ix2 j κ) := by
  unfold val_main_v69
  refine (PlainDot.dotGeneral_plain (φ₁ := .f32) (φ₂ := .f32) _ plain none .single _ _ p j).trans (Finset.sum_congr rfl fun κ _ => ?_)
  rw [v67_at]
  unfold val_main_v68
  rw [transpose_ix2_apply]
  rfl

/-- The reference's result is the specification. -/
theorem result_eq : val_main_v72 (F := Ideal) x0 x1 x2 x3 x4 = G x0 x1 x2 x3 x4 := by
  funext i
  obtain ⟨p, j, rfl⟩ : ∃ (p : Fin 65536) (j : Fin 512), i = ix2 p j := ⟨i 0, i 1, eq_ix2 i⟩
  rw [val_main_v72_apply, v69_at, v71_at]
  rfl

end Cert.Legendre.Ref

end
-- ==== Proof.lean ====
/-
  The certificate of a Legendre-style three-term recurrence of projections, followed by a linear layer.

  Both programs compute, for a row p of z and an output column j,
      Σ_κ o₈(p,κ) · C_w(j,κ) + C_b(j),
  where o₁ = s 0, o₂ = s 1 · o₁ − b₂ · t₀(κ), o_{n+1} = s n · o_n − b_{n+1} · o_{n−1}, and
  s n = Σ_d z(p,d) · (T(n,κ,d) · a_n) is the projection of the row on the n-th parameter slice scaled by a_n.
  The kernel scales and transposes the parameters on the host, stages them whole, and runs the recurrence on blocks
  of 1024 rows with plain matrix products; the reference scales each slice where it uses it and contracts rows
  against rows.  On the extended reals a change of float format is the identity and a matrix product is a finite
  sum, so the two differ only in the order of the factors of one product (commutativity) and in the scaling of
  slice 0 by a_1, whose word denotes 1.  The coefficients' other words are the same on both sides and are never
  evaluated; no finiteness of the inputs is used.

  Spec.lean states the recurrence and the result as one function of the arguments; Body.lean reads the kernel
  body's stored value at an index; Staged.lean reads the arrays the host prefix stages; Blocks.lean goes from the
  blocks the grid points write to the whole result array; Ref.lean reads the reference's result at an index.
-/
import proofs.«158293_j21371757265197_1_alg».proof.Defs
import proofs.«158293_j21371757265197_1_alg».proof.Proof.Gen.Kernel
import proofs.«158293_j21371757265197_1_alg».proof.Proof.Gen.Kernel.Skeleton
import proofs.«158293_j21371757265197_1_alg».proof.Proof.Gen.Kernel.Launch
import proofs.«158293_j21371757265197_1_alg».proof.Proof.Gen.Kernel.Points
import proofs.«158293_j21371757265197_1_alg».proof.Proof.Gen.Kernel.Frame
import proofs.«158293_j21371757265197_1_alg».proof.Proof.Gen.KernelIdeal
import proofs.«158293_j21371757265197_1_alg».proof.Proof.Gen.KernelIdeal.Skeleton
import proofs.«158293_j21371757265197_1_alg».proof.Proof.Gen.KernelIdeal.Launch
import proofs.«158293_j21371757265197_1_alg».proof.Proof.Gen.KernelIdeal.Points
import proofs.«158293_j21371757265197_1_alg».proof.Proof.Gen.KernelIdeal.Frame
import proofs.«158293_j21371757265197_1_alg».proof.Proof.Gen.ReferenceIdeal
import proofs.«158293_j21371757265197_1_alg».proof.Proof.Gen.Pre_finite_inputs
import proofs.«158293_j21371757265197_1_alg».proof.Proof.Gen.KernelIdeal.Value
import proofs.«158293_j21371757265197_1_alg».proof.Proof.Gen.ReferenceIdeal.Run
import proofs.«158293_j21371757265197_1_alg».proof.Proof.Gen.ReferenceIdeal.Read
import proofs.«158293_j21371757265197_1_alg».proof.Proof.Blocks
import proofs.«158293_j21371757265197_1_alg».proof.Proof.Ref
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the five arguments, the idealized kernel and the idealized reference both end with
    the specification of those arguments as their result. -/
theorem algebraic : Cert.algebraic_KernelIdeal_ReferenceIdeal := by
  intro m ρ m' ρ' _ hagree
  refine ⟨_, Cert.Legendre.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v72_eq, Cert.Legendre.Ref.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
